-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S2x600000 32) (main_arg2 : FVec F S128x128 .f32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S5000x128 : Shape := ⟨2, ![5000, 128]⟩
abbrev S1x128 : Shape := ⟨2, ![1, 128]⟩
abbrev S5000 : Shape := ⟨1, ![5000]⟩
abbrev S5000x1 : Shape := ⟨2, ![5000, 1]⟩

abbrev nBuf : Space → Nat
  | .hbm => 41
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S_, .f32⟩
  | .hbm, ⟨19, _⟩ => ⟨S50000x128, .f32⟩
  | .hbm, ⟨20, _⟩ => ⟨S600000x1, .i32⟩
  | .hbm, ⟨21, _⟩ => ⟨S50000x128, .f32⟩
  | .hbm, ⟨22, _⟩ => ⟨S_, .f32⟩
  | .hbm, ⟨23, _⟩ => ⟨S600000, .f32⟩
  | .hbm, ⟨24, _⟩ => ⟨S_, .f32⟩
  | .hbm, ⟨25, _⟩ => ⟨S50000, .f32⟩
  | .hbm, ⟨26, _⟩ => ⟨S600000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S50000x128, .bf16⟩
  | .hbm, ⟨35, _⟩ => ⟨S50000x128, .bf16⟩
  | .hbm, ⟨36, _⟩ => ⟨S128x128, .f32⟩
  | .hbm, ⟨37, _⟩ => ⟨S128x128, .bf16⟩
  | .hbm, ⟨38, _⟩ => ⟨S128x128, .f32⟩
  | .hbm, ⟨39, _⟩ => ⟨S128x128, .bf16⟩
  | .hbm, ⟨40, _⟩ => ⟨S50000x128, .f32⟩
  | .local _ .vmem, ⟨0, _⟩ => ⟨S5000x128, .bf16⟩
  | .local _ .vmem, ⟨1, _⟩ => ⟨S5000x128, .bf16⟩
  | .local _ .vmem, ⟨2, _⟩ => ⟨S5000x128, .bf16⟩
  | .local _ .vmem, ⟨3, _⟩ => ⟨S5000x128, .bf16⟩
  | .local _ .vmem, ⟨4, _⟩ => ⟨S128x128, .bf16⟩
  | .local _ .vmem, ⟨5, _⟩ => ⟨S128x128, .bf16⟩
  | .local _ .vmem, ⟨6, _⟩ => ⟨S128, .f32⟩
  | .local _ .vmem, ⟨7, _⟩ => ⟨S5000x128, .f32⟩
  | .local _ .vmem, ⟨8, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bitsLt_bf16_f32 : FTy.bits .bf16 < FTy.bits .f32
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .bf16 = 32 ∨ (Rect.block (s := S50000x128) S5000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .bf16 = 32 ∨ (Rect.block (s := S50000x128) S5000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v23) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 57
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S_, .f32⟩
  | .hbm, ⟨19, _⟩ => ⟨S50000x128, .f32⟩
  | .hbm, ⟨20, _⟩ => ⟨S600000x1, .i32⟩
  | .hbm, ⟨21, _⟩ => ⟨S50000x128, .f32⟩
  | .hbm, ⟨22, _⟩ => ⟨S_, .f32⟩
  | .hbm, ⟨23, _⟩ => ⟨S600000, .f32⟩
  | .hbm, ⟨24, _⟩ => ⟨S_, .f32⟩
  | .hbm, ⟨25, _⟩ => ⟨S50000, .f32⟩
  | .hbm, ⟨26, _⟩ => ⟨S600000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S128x128, .f32⟩
  | .hbm, ⟨35, _⟩ => ⟨S50000x128, .f32⟩
  | .hbm, ⟨36, _⟩ => ⟨S128x128, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000, .f32⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S50000x1, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S50000, .f32⟩
  | .hbm, ⟨53, _⟩ => ⟨S50000x1, .f32⟩
  | .hbm, ⟨54, _⟩ => ⟨S50000x1, .f32⟩
  | .hbm, ⟨55, _⟩ => ⟨S50000x128, .f32⟩
  | .hbm, ⟨56, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_cst : Ref sig .tc := ⟨.hbm, 42, rfl⟩
abbrev main_call0_v0 : Ref sig .tc := ⟨.hbm, 43, rfl⟩
abbrev main_call0_cst_0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_cst_1 : Ref sig .tc := ⟨.hbm, 51, rfl⟩
abbrev main_call0_v7 : Ref sig .tc := ⟨.hbm, 52, rfl⟩
abbrev main_call0_v8 : Ref sig .tc := ⟨.hbm, 53, rfl⟩
abbrev main_call0_v9 : Ref sig .tc := ⟨.hbm, 54, rfl⟩
abbrev main_call0_v10 : Ref sig .tc := ⟨.hbm, 55, rfl⟩
abbrev main_v31 : Ref sig .tc := ⟨.hbm, 56, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The mathematics both programs compute, stated once and away from either program.

  A node's 128 logits are  z c = (∑ k, a k · wl k c) + (∑ k, x k · wr k c) + b c,  where `a` is the node's row of the
  mean-aggregated neighbour features, `x` its own feature row, `wl` / `wr` the two (transposed) weight matrices and `b`
  the bias.  The result row is the log-softmax of `z`:  z c − M − log (∑ k, exp (z k − M)),  with  M  the largest logit,
  taken as the fold of `max` from −∞ over the 128 lanes.  Everything is read on the extended reals, where each operation
  is the exact one; no law beyond "−∞ is the bottom element" and "0 + s = s" is used anywhere in this certificate.
-/
import Idealize.ShloMosaic.PureOps.Ideal
import Idealize.ShloMosaic.PureOps.Ideal.Laws
import Idealize.ShloMosaic.Lib.ValueIdx

noncomputable section

open scoped BigOperators

namespace Cert.Sage

open Idealize.ShloMosaic Idealize.ShloMosaic.ValueIdx

/-- The f32 pattern of negative infinity denotes the bottom element of the extended reals. -/
theorem negInf_eq_bot : Ideal.ofBits .f32 0xFF800000#32 = (⊥ : EReal) := by
  simp [Ideal.ofBits, Ideal.ieee]

/-- Taking the maximum with −∞ changes nothing. -/
theorem max_negInf_left (y : EReal) : max (Ideal.ofBits .f32 0xFF800000#32) y = y := by
  rw [negInf_eq_bot]; exact max_eq_right bot_le

/-- The largest of a row's 128 entries: the fold of `max` over the lanes, started from −∞. -/
def rowMax (z : Fin 128 → EReal) : EReal :=
  (Finset.univ : Finset (Fin 128)).fold max (Ideal.ofBits .f32 0xFF800000#32) z

/-- Log-softmax of one row: each entry less the row's maximum, less the logarithm of the sum of the exponentials of
    the entries so shifted. -/
def logSoftmaxRow (z : Fin 128 → EReal) (c : Fin 128) : EReal :=
  (z c - rowMax z) - Ideal.log (∑ k : Fin 128, Ideal.exp (z k - rowMax z))

/-- One node's logits from its aggregated row `a`, its own row `x`, the two weight matrices (contraction index first)
    and the bias. -/
def logit (a x : Fin 128 → EReal) (wl wr : Fin 128 → Fin 128 → EReal) (b : Fin 128 → EReal) (c : Fin 128) : EReal :=
  ((∑ k : Fin 128, a k * wl k c) + (∑ k : Fin 128, x k * wr k c)) + b c

/-- The whole result: row `r` of the output is the log-softmax of node `r`'s logits. `A` is the array of aggregated
    rows, `X` the feature array, `Wl` / `Wr` the weight matrices as the matrix products read them (contraction index
    first), `b` the bias. -/
def sage (A X : (⟨2, ![50000, 128]⟩ : Shape).Idx → EReal) (Wl Wr : (⟨2, ![128, 128]⟩ : Shape).Idx → EReal)
    (b : (⟨1, ![128]⟩ : Shape).Idx → EReal) : (⟨2, ![50000, 128]⟩ : Shape).Idx → EReal :=
  fun i => logSoftmaxRow (logit (fun k => A (ix2 (i 0) k)) (fun k => X (ix2 (i 0) k)) (fun k c => Wl (ix2 k c))
    (fun k c => Wr (ix2 k c)) (fun c => b (ix1 c))) (i 1)

/-- `sage` at explicit coordinates. -/
theorem sage_ix2 (A X : (⟨2, ![50000, 128]⟩ : Shape).Idx → EReal) (Wl Wr : (⟨2, ![128, 128]⟩ : Shape).Idx → EReal)
    (b : (⟨1, ![128]⟩ : Shape).Idx → EReal) (r : Fin 50000) (c : Fin 128) :
    sage A X Wl Wr b (ix2 r c) = logSoftmaxRow (logit (fun k => A (ix2 r k)) (fun k => X (ix2 r k)) (fun k c => Wl (ix2 k c))
      (fun k c => Wr (ix2 k c)) (fun c => b (ix1 c))) c := rfl

end Cert.Sage

end
-- ==== Proof.LibColumn.lean ====
/-
  Column forms of the layout operations, read at an index: the shapes a "keepdims" row reduction passes through.
  A length-`a` vector cast to an `a × 1` column keeps entry `p` at `(p, 0)`; a column broadcast along the second axis to
  `a × b` reads its entry `p` at every `(p, c)`; and the index that a reduction over the second axis of an `a × b` array
  rebuilds from the kept coordinate `p` and the reduced coordinate `k` is `(p, k)`.
-/
import Idealize.ShloMosaic.Lib.Pipeline.Value
import Idealize.ShloMosaic.Lib.ValueIdx
import Idealize.ShloMosaic.PureOps.Reduce

noncomputable section

namespace Idealize.ShloMosaic.ValueIdx

open Idealize.ShloMosaic

variable {α : Type}

/-- An `[a]` array cast to the column shape `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing an `a × b` array over its second axis: the kept index `p` with the reduced coordinate `k` put back is
    `(p, k)`. -/
theorem lift_axis1_ix2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  match c with
  | ⟨0, _⟩ => rfl
  | ⟨1, _⟩ => rfl

end Idealize.ShloMosaic.ValueIdx

end
-- ==== Proof.KernelRow.lean ====
/-
  What the kernel body writes for one block of 5000 nodes, read entry by entry.

  The body forms the block of logits  z = a·wl + x·wr + b  (two matrix products into zero accumulators, added, plus the
  bias row broadcast down the block), takes each row's maximum M (a lane reduction by `max` from −∞, kept as a column
  and broadcast back), shifts  s = z − M,  sums exp s along each row, takes the logarithm of that column and subtracts
  it:  s − log (∑ exp s).  Read at row `p`, column `q`, that is the log-softmax of row `p`'s logits at `q`, and row
  `p`'s logits depend only on row `p` of the two input blocks.
-/
import proofs.«149953_j18004502905473_1_alg».proof.Proof.Gen.KernelIdeal.Skeleton
import proofs.«149953_j18004502905473_1_alg».proof.Proof.Spec
import proofs.«149953_j18004502905473_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option synthInstance.maxSize 4096

noncomputable section

open scoped BigOperators

namespace Cert.KernelIdeal.Row

open Cert.KernelIdeal Cert.KernelIdeal.Gen Idealize.ShloMosaic Idealize.ShloMosaic.ValueIdx Cert.Sage

/-! ## A block matrix product into a zero accumulator, at an entry -/

/-- The left operand is read at the output's row … -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the contraction index; -/
theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contraction index … -/
theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and at the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, c) of a [5000,128] × [128,128] product accumulated into zero is the sum over the 128 contraction
    indices of the products of row `p` of the left operand with column `c` of the right. -/
theorem matmul_zero_ix2 (l : FVec Ideal S5000x128 .bf16) (r : FVec Ideal S128x128 .bf16) (p : Fin 5000) (c : Fin 128) :
    matmul dot_S5000x128_S128x128_S5000x128_1_0_0_1_n_n none l r (constant (F := Ideal) S5000x128 .f32 0x00000000#32) (ix2 p c)
      = ∑ k : Fin 128, l (ix2 p k) * r (ix2 k c) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p c) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 p c) ((contrEquiv1 dot_S5000x128_S128x128_S5000x128_1_0_0_1_n_n 128 rfl rfl).symm k) = ix2 k c := funext fun a => Fin.ext (by
    match a with
    | ⟨0, _⟩ => exact (rhs_contr _ _).trans hk
    | ⟨1, _⟩ => exact rhs_col _ _)
  rw [el, er]

/-! ## The three stages of the body -/

/-- The block of logits: both products, their sum, and the bias row added to every row. -/
def logits (a x : FVec Ideal S5000x128 .bf16) (wl wr : FVec Ideal S128x128 .bf16) (b : FVec Ideal S128 .f32) :
    FVec Ideal S5000x128 .f32 :=
  addf
    (addf
      (matmul dot_S5000x128_S128x128_S5000x128_1_0_0_1_n_n none (shapeCast S5000x128 a shapeCasts_S5000x128_S5000x128)
        (shapeCast S128x128 wl shapeCasts_S128x128_S128x128) (constant (F := Ideal) S5000x128 .f32 0x00000000#32))
      (matmul dot_S5000x128_S128x128_S5000x128_1_0_0_1_n_n none (shapeCast S5000x128 x shapeCasts_S5000x128_S5000x128)
        (shapeCast S128x128 wr shapeCasts_S128x128_S128x128) (constant (F := Ideal) S5000x128 .f32 0x00000000#32)))
    (broadcastTo S5000x128 (shapeCast S1x128 b shapeCasts_S128_S1x128) broadcasts_S1x128_S5000x128)

/-- A block less its row maxima. -/
def shifted (z : FVec Ideal S5000x128 .f32) : FVec Ideal S5000x128 .f32 :=
  subf z (broadcastTo S5000x128
    (shapeCast S5000x1 (multiReduction .maximumf [1] S5000 z 0xFF800000#32 reduces_S5000x128_S5000 (.inl rfl) rfl)
      shapeCasts_S5000_S5000x1) broadcasts_S5000x1_S5000x128)

/-- A block less the logarithm of its rows' sums of exponentials. -/
def normalized (s : FVec Ideal S5000x128 .f32) : FVec Ideal S5000x128 .f32 :=
  subf s (broadcastTo S5000x128
    (log (shapeCast S5000x1 (multiReduction .add [1] S5000 (exp s) 0x00000000#32 reduces_S5000x128_S5000 (.inl rfl) rfl)
      shapeCasts_S5000_S5000x1)) broadcasts_S5000x1_S5000x128)

/-- The body's one stored value is these three stages composed. -/
theorem pay_eq (a x : FVec Ideal S5000x128 .bf16) (wl wr : FVec Ideal S128x128 .bf16) (b : FVec Ideal S128 .f32) :
    k0_pay1 (F := Ideal) a x wl wr b = normalized (shifted (logits a x wl wr b)) := rfl

/-! ## Each stage at an entry -/

/-- Row `p` of the logits block is the logits of row `p` of the two input blocks. -/
theorem logits_ix2 (a x : FVec Ideal S5000x128 .bf16) (wl wr : FVec Ideal S128x128 .bf16) (b : FVec Ideal S128 .f32)
    (p : Fin 5000) (c : Fin 128) :
    logits a x wl wr b (ix2 p c)
      = logit (fun k => a (ix2 p k)) (fun k => x (ix2 p k)) (fun k c => wl (ix2 k c)) (fun k c => wr (ix2 k c))
          (fun c => b (ix1 c)) c := by
  unfold logits
  rw [shapeCast_self, shapeCast_self, shapeCast_self, shapeCast_self, addf_apply, addf_apply, matmul_zero_ix2, matmul_zero_ix2,
    broadcastTo_1b_ab_apply, shapeCast_a_1a_apply]
  rfl

/-- The lane maximum of row `p`, from −∞. -/
theorem rowMax_ix1 (z : FVec Ideal S5000x128 .f32) (hr : S5000x128.Reduces [1] S5000) (hφ : FKind.Formats .f32)
    (hacc : (0xFF800000#32 : BitVec FTy.f32.bits) = FKind.maximumf.neutral .f32 hφ) (p : Fin 5000) :
    multiReduction .maximumf [1] S5000 z 0xFF800000#32 hr hφ hacc (ix1 p) = rowMax (fun c => z (ix2 p c)) := by
  refine (Ideal.multiReduction_maximumf_single z 0xFF800000#32 hr hφ hacc (ix1 p)).trans ?_
  unfold rowMax
  refine congrArg (fun f => Finset.fold max (Ideal.ofBits .f32 0xFF800000#32) f (Finset.univ : Finset (Fin 128))) ?_
  funext k
  exact congrArg z (lift_axis1_ix2 hr p k)

/-- The shifted block at (p, c): the entry less its row's maximum. -/
theorem shifted_ix2 (z : FVec Ideal S5000x128 .f32) (p : Fin 5000) (c : Fin 128) :
    shifted z (ix2 p c) = z (ix2 p c) - rowMax (fun c => z (ix2 p c)) := by
  unfold shifted
  rw [subf_apply, broadcastTo_a1_ab_apply, shapeCast_a_a1_apply]
  exact congrArg (z (ix2 p c) - ·) (rowMax_ix1 z _ _ _ p)

/-- The lane sum of row `p`. -/
theorem rowSum_ix1 (e : FVec Ideal S5000x128 .f32) (hr : S5000x128.Reduces [1] S5000) (hφ : FKind.Formats .f32)
    (hacc : (0x00000000#32 : BitVec FTy.f32.bits) = FKind.add.neutral .f32 hφ) (p : Fin 5000) :
    multiReduction .add [1] S5000 e 0x00000000#32 hr hφ hacc (ix1 p) = ∑ k : Fin 128, e (ix2 p k) := by
  refine (Ideal.multiReduction_add_single e 0x00000000#32 hr hφ hacc (ix1 p)).trans ?_
  refine Finset.sum_congr rfl fun k _ => ?_
  exact congrArg e (lift_axis1_ix2 hr p k)

/-- The normalized block at (p, q), for a block `s` whose row `p` is a given row `σ`. -/
theorem normalized_ix2 (s : FVec Ideal S5000x128 .f32) (σ : Fin 128 → EReal) (p : Fin 5000) (hσ : ∀ c : Fin 128, s (ix2 p c) = σ c)
    (q : Fin 128) :
    normalized s (ix2 p q) = σ q - Ideal.log (∑ k : Fin 128, Ideal.exp (σ k)) := by
  unfold normalized
  rw [subf_apply, hσ q, broadcastTo_a1_ab_apply]
  show σ q - Ideal.log (shapeCast S5000x1 _ shapeCasts_S5000_S5000x1 (ix2 p (0 : Fin 1))) = _
  rw [shapeCast_a_a1_apply]
  refine congrArg (fun t => σ q - Ideal.log t) ?_
  refine (rowSum_ix1 (exp s) _ _ _ p).trans ?_
  refine Finset.sum_congr rfl fun k _ => ?_
  show Ideal.exp (s (ix2 p k)) = _
  rw [hσ k]

/-! ## The stored value at an entry -/

/-- Entry (p, q) of what the body stores is the log-softmax, at `q`, of the logits of row `p` of the input blocks. -/
theorem payload_ix2 (a x : FVec Ideal S5000x128 .bf16) (wl wr : FVec Ideal S128x128 .bf16) (b : FVec Ideal S128 .f32)
    (p : Fin 5000) (q : Fin 128) :
    k0_pay1 (F := Ideal) a x wl wr b (ix2 p q)
      = logSoftmaxRow (logit (fun k => a (ix2 p k)) (fun k => x (ix2 p k)) (fun k c => wl (ix2 k c))
          (fun k c => wr (ix2 k c)) (fun c => b (ix1 c))) q := by
  rw [pay_eq]
  have key : ∀ (L : Fin 128 → EReal), (∀ c : Fin 128, logits a x wl wr b (ix2 p c) = L c) →
      normalized (shifted (logits a x wl wr b)) (ix2 p q) = logSoftmaxRow L q := by
    intro L hL
    have hrow : (fun c : Fin 128 => logits a x wl wr b (ix2 p c)) = L := funext hL
    have hσ : ∀ c : Fin 128, shifted (logits a x wl wr b) (ix2 p c) = L c - rowMax L := fun c => by
      rw [shifted_ix2, hrow, hL c]
    exact normalized_ix2 (shifted (logits a x wl wr b)) (fun c => L c - rowMax L) p hσ q
  exact key _ (fun c => logits_ix2 a x wl wr b p c)

end Cert.KernelIdeal.Row

end
-- ==== Proof.KernelWhole.lean ====
/-
  From blocks to the whole array.

  The grid has ten points; point `t` reads rows 5000·t … 5000·t + 4999 of the aggregated and the feature arrays, all of
  both weight matrices and of the bias, and writes back rows 5000·t … 5000·t + 4999 of the output.  A result row depends
  only on the same row of the two big inputs, so what point `t` writes is exactly block `t` of ONE function of the whole
  input arrays (`sage`), and the ten blocks tile the output: after the run the output array is that function.
-/
import proofs.«149953_j18004502905473_1_alg».proof.Proof.Gen.KernelIdeal.Value
import proofs.«149953_j18004502905473_1_alg».proof.Proof.KernelRow

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (m : (ℓ : Loc nD τ sig) → Buf (Elt Ideal) ℓ) (ρ : Dev nD → PrngReg)

/-! ## One point, over plain arrays -/

/-- If row `p` of the two input blocks is row `r` of the two input arrays, and the weight and bias blocks are the
    whole weight and bias arrays, then entry (p, q) of what the body stores is entry (r, q) of `sage`. -/
theorem point_eq (A X : FVec Ideal S50000x128 .bf16) (Wl Wr : FVec Ideal S128x128 .bf16) (B : FVec Ideal S128 .f32)
    (a x : FVec Ideal S5000x128 .bf16) (wl wr : FVec Ideal S128x128 .bf16) (b : FVec Ideal S128 .f32)
    (p : Fin 5000) (q : Fin 128) (r : Fin 50000)
    (ha : ∀ k : Fin 128, a (ix2 p k) = A (ix2 r k)) (hx : ∀ k : Fin 128, x (ix2 p k) = X (ix2 r k))
    (hwl : ∀ k c : Fin 128, wl (ix2 k c) = Wl (ix2 k c)) (hwr : ∀ k c : Fin 128, wr (ix2 k c) = Wr (ix2 k c))
    (hb : ∀ c : Fin 128, b (ix1 c) = B (ix1 c)) :
    k0_pay1 (F := Ideal) a x wl wr b (ix2 p q) = sage A X Wl Wr B (ix2 r q) := by
  rw [Cert.KernelIdeal.Row.payload_ix2, sage_ix2]
  have e1 : (fun k : Fin 128 => a (ix2 p k)) = fun k => A (ix2 r k) := funext ha
  have e2 : (fun k : Fin 128 => x (ix2 p k)) = fun k => X (ix2 r k) := funext hx
  have e3 : (fun k c : Fin 128 => wl (ix2 k c)) = fun k c => Wl (ix2 k c) := funext fun k => funext fun c => hwl k c
  have e4 : (fun k c : Fin 128 => wr (ix2 k c)) = fun k c => Wr (ix2 k c) := funext fun k => funext fun c => hwr k c
  have e5 : (fun c : Fin 128 => b (ix1 c)) = fun c => B (ix1 c) := funext hb
  rw [e1, e2, e3, e4, e5]

/-! ## The arrays the region finds, and the function of them -/

/-- The aggregated rows, as the region finds them. -/
abbrev aggArr (c : Dev nD) : FVec Ideal S50000x128 .bf16 := V m c main_v23
/-- The feature rows, as the region finds them. -/
abbrev featArr (c : Dev nD) : FVec Ideal S50000x128 .bf16 := V m c main_v24
/-- The two weight matrices, contraction index first, as the region finds them. -/
abbrev wlArr (c : Dev nD) : FVec Ideal S128x128 .bf16 := V m c main_v26
abbrev wrArr (c : Dev nD) : FVec Ideal S128x128 .bf16 := V m c main_v28
/-- The bias. -/
abbrev biasArr (c : Dev nD) : FVec Ideal S128 .f32 := V m c main_arg4

/-- What the output array ends holding: `sage` of the arrays the region finds. -/
def result (c : Dev nD) : FVec Ideal S50000x128 .f32 :=
  sage (aggArr m c) (featArr m c) (wlArr m c) (wrArr m c) (biasArr m c)

/-! ## The index maps, decided over the ten points -/

theorem zero2 : (![0, 0] : Fin 2 → Nat) = fun _ => 0 := funext fun a => by fin_cases a <;> rfl
theorem zero1 : (![0] : Fin 1 → Nat) = fun _ => 0 := funext fun a => by fin_cases a <;> rfl

/-- The two big inputs move with the output along the rows and stay at column block 0; the weights and the bias stay at
    block 0; the output's row block is one of the ten and its column block is 0. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (1 : Fin 2) = 0 ∧ win0_5.index t (0 : Fin 2) ≤ 9 :=
  (by decide +kernel : ∀ t : Fin grid0.N, _)

/-- Every one of the ten row blocks is some point's. -/
theorem idx_onto : ∀ q0 : Fin 10, ∃ t : Fin cfg0.N, win0_5.index t = ![q0.val, 0] :=
  (by decide +kernel : ∀ q0 : Fin 10, ∃ t : Fin grid0.N, win0_5.index t = ![q0.val, 0])

/-! ## What a point writes back -/

/-- Point `t` writes back block `t` of `result`. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero zero2]
  simp only [View.ld_unit_zero (S := S5000x128) zero2, View.ld_unit_zero (S := S128x128) zero2,
    View.ld_unit_zero (S := S128) zero1]
  obtain ⟨e0, e1, e2, e3, e4, e5, e6, e7, e8, e9, e10⟩ := idx_facts t
  funext j
  obtain ⟨p, q, rfl⟩ : ∃ (p : Fin 5000) (q : Fin 128), j = ix2 p q := ⟨j 0, j 1, eq_ix2 j⟩
  have hrow : win0_5.index t (0 : Fin 2) * 5000 + p.val < 50000 := by have := p.isLt; omega
  have h5 : ((cfg0.win 5).blk t).view.emb (ix2 p q)
      = ix2 (⟨win0_5.index t (0 : Fin 2) * 5000 + p.val, hrow⟩ : Fin 50000) q := by
    funext a; apply Fin.ext
    match a with
    | ⟨0, _⟩ => show win0_5.index t (0 : Fin 2) * 5000 + 1 * p.val = win0_5.index t (0 : Fin 2) * 5000 + p.val; omega
    | ⟨1, _⟩ => show win0_5.index t (1 : Fin 2) * 128 + 1 * q.val = q.val; omega
  show k0_pay1 (F := Ideal) (iblk m c 0 t) (iblk m c 1 t) (iblk m c 2 t) (iblk m c 3 t) (iblk m c 4 t) (ix2 p q)
      = result m c (((cfg0.win 5).blk t).view.emb (ix2 p q))
  rw [h5]
  refine point_eq (aggArr m c) (featArr m c) (wlArr m c) (wrArr m c) (biasArr m c)
    (iblk m c 0 t) (iblk m c 1 t) (iblk m c 2 t) (iblk m c 3 t) (iblk m c 4 t) p q _ ?_ ?_ ?_ ?_ ?_
  · intro k
    show V m c main_v23 (((cfg0.win 0).blk t).view.emb (ix2 p k)) = V m c main_v23 (ix2 (⟨win0_5.index t (0 : Fin 2) * 5000 + p.val, hrow⟩ : Fin 50000) k)
    refine congrArg _ (funext fun a => Fin.ext ?_)
    match a with
    | ⟨0, _⟩ => show win0_0.index t (0 : Fin 2) * 5000 + 1 * p.val = win0_5.index t (0 : Fin 2) * 5000 + p.val; omega
    | ⟨1, _⟩ => show win0_0.index t (1 : Fin 2) * 128 + 1 * k.val = k.val; omega
  · intro k
    show V m c main_v24 (((cfg0.win 1).blk t).view.emb (ix2 p k)) = V m c main_v24 (ix2 (⟨win0_5.index t (0 : Fin 2) * 5000 + p.val, hrow⟩ : Fin 50000) k)
    refine congrArg _ (funext fun a => Fin.ext ?_)
    match a with
    | ⟨0, _⟩ => show win0_1.index t (0 : Fin 2) * 5000 + 1 * p.val = win0_5.index t (0 : Fin 2) * 5000 + p.val; omega
    | ⟨1, _⟩ => show win0_1.index t (1 : Fin 2) * 128 + 1 * k.val = k.val; omega
  · intro k c'
    show V m c main_v26 (((cfg0.win 2).blk t).view.emb (ix2 k c')) = V m c main_v26 (ix2 k c')
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * c'.val = c'.val; omega
  · intro k c'
    show V m c main_v28 (((cfg0.win 3).blk t).view.emb (ix2 k c')) = V m c main_v28 (ix2 k c')
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * c'.val = c'.val; omega
  · intro c'
    show V m c main_arg4 (((cfg0.win 4).blk t).view.emb (ix1 c')) = V m c main_arg4 (ix1 c')
    refine congrArg _ (funext fun a => Fin.ext ?_)
    match a with
    | ⟨0, _⟩ => show win0_4.index t (0 : Fin 1) * 128 + 1 * c'.val = c'.val; omega

/-! ## The ten blocks tile the output -/

/-- An index of the output array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v29).slice (win0_5.rect t)).set ↔ _
  rw [View.set_slice_whole, Rect.mem_set_unit]
  exact Iff.rfl

/-- Every index of the output is in the block of the point whose row block is its row divided by 5000. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the run is `result`. -/
theorem final (c : Dev nD) : (dats m 0 c).arrAt 5 cfg0.N = result m c :=
  (dats m 0 c).arrAt_eq_of_cover 5 (result m c) (fun t _ => flushed_eq m c t) covered

/-- The kernel program's run with the output named: every weakly fair execution terminates with the output array at
    `result` and the five arguments unchanged. -/
theorem run : θ_run defs (onTc (τ := τ) (main (F := Ideal))) ⟨m, fun _ => 0, ρ⟩ fun r => ∀ c : Dev nD,
      r.2.mem ((c : Thread nD τ).loc main_v29) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Whole

end
-- ==== Proof.KernelEntry.lean ====
/-
  What the kernel's one region finds in the arrays it stages.

  Before the region @main runs 37 host operations: the same gather, two scatter-adds, maximum and division as the
  reference (the mean of the neighbours' rows), then a narrowing of that array and of the feature array to bf16, and the
  transposition and narrowing of the two weight matrices.  So the five staged arrays are: the narrowed mean-aggregated
  rows, the narrowed feature rows, the two narrowed transposed weight matrices, and the bias argument itself.
-/
import proofs.«149953_j18004502905473_1_alg».proof.Proof.Gen.KernelIdeal.Frame
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]

/-- The mean of the neighbours' feature rows: source rows gathered, summed into their destination rows, divided by
    the larger of the neighbour count and 1. -/
def meanAgg (x0 : (⟨S50000x128, .f32⟩ : BufTy).Contents (Elt F)) (x1 : (⟨S2x600000, .i32⟩ : BufTy).Contents (Elt F)) : (⟨S50000x128, .f32⟩ : BufTy).Contents (Elt F) :=
  Host.divf (Host.scatterAdd scatter_S50000x128_S600000x1_S600000x128_1_0_0_1 (broadcastInDim S50000x128 ![] bcast_S_S50000x128 (constant S_ .f32 0x00000000#32)) (broadcastInDim S600000x1 ![0] bcast_S600000_S600000x1_0 (shapeCast _ (extractStridedSlice S1x600000 ![1, 0] x1 slices_S2x600000_S1x600000_1_0) shapeCasts_S1x600000_S600000)) (Host.gather gather_S50000x128_S600000x1_S600000x128_1_0_n_n_0_1_1128 x0 (broadcastInDim S600000x1 ![0] bcast_S600000_S600000x1_0 (select (cmpi .slt (shapeCast _ (extractStridedSlice S1x600000 ![0, 0] x1 slices_S2x600000_S1x600000_0_0) shapeCasts_S1x600000_S600000) (broadcastInDim S600000 ![] bcast_S_S600000 (constantI S_ 32 0#32))) (addi (shapeCast _ (extractStridedSlice S1x600000 ![0, 0] x1 slices_S2x600000_S1x600000_0_0) shapeCasts_S1x600000_S600000) (broadcastInDim S600000 ![] bcast_S_S600000 (constantI S_ 32 50000#32))) (shapeCast _ (extractStridedSlice S1x600000 ![0, 0] x1 slices_S2x600000_S1x600000_0_0) shapeCasts_S1x600000_S600000))))) (broadcastInDim S50000x128 ![0, 1] bcast_S50000x1_S50000x128_0_1 (broadcastInDim S50000x1 ![0] bcast_S50000_S50000x1_0 (maximumf (Host.scatterAdd scatter_S50000_S600000x1_S600000_n_0_0_1 (broadcastInDim S50000 ![] bcast_S_S50000 (constant S_ .f32 0x00000000#32)) (broadcastInDim S600000x1 ![0] bcast_S600000_S600000x1_0 (shapeCast _ (extractStridedSlice S1x600000 ![1, 0] x1 slices_S2x600000_S1x600000_1_0) shapeCasts_S1x600000_S600000)) (broadcastInDim S600000 ![] bcast_S_S600000 (constant S_ .f32 0x3F800000#32))) (broadcastInDim S50000 ![] bcast_S_S50000 (constant S_ .f32 0x3F800000#32)))))

variable (m : (ℓ : Loc nD τ sig) → Buf (Elt F) ℓ)

attribute [local irreducible] Host.gather Host.scatterAdd in
/-- The first staged array: the mean-aggregated rows, narrowed. -/
theorem found_agg (c : Dev nD) :
    (V m c main_v23 : (⟨S50000x128, .bf16⟩ : BufTy).Contents (Elt F))
      = truncf .bf16 (meanAgg (m ((c : Thread nD τ).loc main_arg0)) (m ((c : Thread nD τ).loc main_arg1))) bitsLt_bf16_f32 := by
  dsimp only [Gen.V, Gen.hostOps0]
  after_results_simp <;> rfl

attribute [local irreducible] Host.gather Host.scatterAdd in
/-- The second: the feature rows, narrowed. -/
theorem found_feat (c : Dev nD) :
    (V m c main_v24 : (⟨S50000x128, .bf16⟩ : BufTy).Contents (Elt F)) = truncf .bf16 (m ((c : Thread nD τ).loc main_arg0)) bitsLt_bf16_f32 := by
  dsimp only [Gen.V, Gen.hostOps0]
  after_results_simp <;> rfl

attribute [local irreducible] Host.gather Host.scatterAdd in
/-- The third: the first weight matrix transposed, narrowed. -/
theorem found_wl (c : Dev nD) :
    (V m c main_v26 : (⟨S128x128, .bf16⟩ : BufTy).Contents (Elt F))
      = truncf .bf16 (transpose S128x128 [1, 0] (m ((c : Thread nD τ).loc main_arg2)) transposes_S128x128_S128x128_1_0) bitsLt_bf16_f32 := by
  dsimp only [Gen.V, Gen.hostOps0]
  after_results_simp <;> rfl

attribute [local irreducible] Host.gather Host.scatterAdd in
/-- The fourth: the second weight matrix transposed, narrowed. -/
theorem found_wr (c : Dev nD) :
    (V m c main_v28 : (⟨S128x128, .bf16⟩ : BufTy).Contents (Elt F))
      = truncf .bf16 (transpose S128x128 [1, 0] (m ((c : Thread nD τ).loc main_arg3)) transposes_S128x128_S128x128_1_0) bitsLt_bf16_f32 := by
  dsimp only [Gen.V, Gen.hostOps0]
  after_results_simp <;> rfl

end Cert.KernelIdeal.Entry

end
-- ==== Proof.RefRun.lean ====
/-
  The reference program's run, read back.

  @main of the reference is a straight line of 52 host operations: 37 of its own — the gather of source rows, the two
  scatter-adds (row sums and neighbour counts), the division by max(count, 1), the two matrix products against the
  transposed weights, their sum and the bias — followed by the 15 operations of jax's log_softmax, inlined at its one
  call.  The inlined operations are written over references that carry their tensor type; at literal references that
  typing is the identity, so the line is, operation for operation, the list `ops` below over the plain buffers.  A
  straight line ends with every buffer at the fold of the operations' results over the launch contents: the result
  buffer at the composition `refValue` of the five arguments, and the argument buffers, which no operation writes, as
  launched.  The four heavy host operations (gather, scatter-add, the two reductions) are never opened here: the line
  only composes them.
-/
import proofs.«149953_j18004502905473_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## @main as a list of operations -/

/-- @main's 52 operations in order, the callee's standing in its call's place, each over its plain buffers. -/
abbrev ops : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_c (constantI S_ 32 0#32),
    unary main_c main_v4 (broadcastInDim S600000 ![] bcast_S_S600000 : (⟨S_, .i32⟩ : BufTy).Contents (Elt F) → (⟨S600000, .i32⟩ : BufTy).Contents (Elt F)),
    binary main_v1 main_v4 main_v5 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v6 (broadcastInDim S600000 ![] bcast_S_S600000 : (⟨S_, .i32⟩ : BufTy).Contents (Elt F) → (⟨S600000, .i32⟩ : BufTy).Contents (Elt F)),
    binary main_v1 main_v6 main_v7 (addi : (⟨S600000, .i32⟩ : BufTy).Contents (Elt F) → (⟨S600000, .i32⟩ : BufTy).Contents (Elt F) → (⟨S600000, .i32⟩ : BufTy).Contents (Elt F)),
    ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v8 main_v9 (broadcastInDim S600000x1 ![0] bcast_S600000_S600000x1_0 : (⟨S600000, .i32⟩ : BufTy).Contents (Elt F) → (⟨S600000x1, .i32⟩ : BufTy).Contents (Elt F)),
    binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S600000x1 ![0] bcast_S600000_S600000x1_0 : (⟨S600000, .i32⟩ : BufTy).Contents (Elt F) → (⟨S600000x1, .i32⟩ : BufTy).Contents (Elt F)),
    ternary main_v11 main_v12 main_v10 main_v13 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    nullary main_cst_1 (constant S_ .f32 0x3F800000#32),
    unary main_cst_1 main_v14 (broadcastInDim S600000 ![] bcast_S_S600000 : (⟨S_, .f32⟩ : BufTy).Contents (Elt F) → (⟨S600000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S600000x1 ![0] bcast_S600000_S600000x1_0 : (⟨S600000, .i32⟩ : BufTy).Contents (Elt F) → (⟨S600000x1, .i32⟩ : BufTy).Contents (Elt F)),
    ternary main_v15 main_v16 main_v14 main_v17 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    unary main_arg2 main_v23 ((transpose S128x128 [1, 0] · transposes_S128x128_S128x128_1_0) : (⟨S128x128, .f32⟩ : BufTy).Contents (Elt F) → (⟨S128x128, .f32⟩ : BufTy).Contents (Elt F)),
    binary main_v22 main_v23 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v25 ((transpose S128x128 [1, 0] · transposes_S128x128_S128x128_1_0) : (⟨S128x128, .f32⟩ : BufTy).Contents (Elt F) → (⟨S128x128, .f32⟩ : BufTy).Contents (Elt F)),
    binary main_arg0 main_v25 main_v26 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v24 main_v26 main_v27 (addf : (⟨S50000x128, .f32⟩ : BufTy).Contents (Elt F) → (⟨S50000x128, .f32⟩ : BufTy).Contents (Elt F) → (⟨S50000x128, .f32⟩ : BufTy).Contents (Elt F)),
    unary main_arg4 main_v28 (broadcastInDim S1x128 ![1] bcast_S128_S1x128_1 : (⟨S128, .f32⟩ : BufTy).Contents (Elt F) → (⟨S1x128, .f32⟩ : BufTy).Contents (Elt F)),
    unary main_v28 main_v29 (broadcastInDim S50000x128 ![0, 1] bcast_S1x128_S50000x128_0_1 : (⟨S1x128, .f32⟩ : BufTy).Contents (Elt F) → (⟨S50000x128, .f32⟩ : BufTy).Contents (Elt F)),
    binary main_v27 main_v29 main_v30 (addf : (⟨S50000x128, .f32⟩ : BufTy).Contents (Elt F) → (⟨S50000x128, .f32⟩ : BufTy).Contents (Elt F) → (⟨S50000x128, .f32⟩ : BufTy).Contents (Elt F)),
    nullary main_call0_cst (constant S_ .f32 0xFF800000#32 : (⟨S_, .f32⟩ : BufTy).Contents (Elt F)),
    binary main_v30 main_call0_cst main_call0_v0 (fun x v => Host.reduce FloatOps.maximumf x v reducesTo_S50000x128_S50000_d1 h_S_ : (⟨S50000x128, .f32⟩ : BufTy).Contents (Elt F) → (⟨S_, .f32⟩ : BufTy).Contents (Elt F) → (⟨S50000, .f32⟩ : BufTy).Contents (Elt F)),
    nullary main_call0_cst_0 (constant S_ .f32 0xFF800000#32 : (⟨S_, .f32⟩ : BufTy).Contents (Elt F)),
    unary main_call0_cst_0 main_call0_v1 (broadcastInDim S50000 ![] bcast_S_S50000 : (⟨S_, .f32⟩ : BufTy).Contents (Elt F) → (⟨S50000, .f32⟩ : BufTy).Contents (Elt F)),
    binary main_call0_v1 main_call0_v0 main_call0_v2 (maximumf : (⟨S50000, .f32⟩ : BufTy).Contents (Elt F) → (⟨S50000, .f32⟩ : BufTy).Contents (Elt F) → (⟨S50000, .f32⟩ : BufTy).Contents (Elt F)),
    unary main_call0_v2 main_call0_v3 (broadcastInDim S50000x1 ![0] bcast_S50000_S50000x1_0 : (⟨S50000, .f32⟩ : BufTy).Contents (Elt F) → (⟨S50000x1, .f32⟩ : BufTy).Contents (Elt F)),
    unary main_call0_v3 main_call0_v4 (broadcastInDim S50000x128 ![0, 1] bcast_S50000x1_S50000x128_0_1 : (⟨S50000x1, .f32⟩ : BufTy).Contents (Elt F) → (⟨S50000x128, .f32⟩ : BufTy).Contents (Elt F)),
    binary main_v30 main_call0_v4 main_call0_v5 (subf : (⟨S50000x128, .f32⟩ : BufTy).Contents (Elt F) → (⟨S50000x128, .f32⟩ : BufTy).Contents (Elt F) → (⟨S50000x128, .f32⟩ : BufTy).Contents (Elt F)),
    unary main_call0_v5 main_call0_v6 (Host.exp : (⟨S50000x128, .f32⟩ : BufTy).Contents (Elt F) → (⟨S50000x128, .f32⟩ : BufTy).Contents (Elt F)),
    nullary main_call0_cst_1 (constant S_ .f32 0x00000000#32 : (⟨S_, .f32⟩ : BufTy).Contents (Elt F)),
    binary main_call0_v6 main_call0_cst_1 main_call0_v7 (fun x v => Host.reduceAdd x v reducesTo_S50000x128_S50000_d1 h_S_ : (⟨S50000x128, .f32⟩ : BufTy).Contents (Elt F) → (⟨S_, .f32⟩ : BufTy).Contents (Elt F) → (⟨S50000, .f32⟩ : BufTy).Contents (Elt F)),
    unary main_call0_v7 main_call0_v8 (broadcastInDim S50000x1 ![0] bcast_S50000_S50000x1_0 : (⟨S50000, .f32⟩ : BufTy).Contents (Elt F) → (⟨S50000x1, .f32⟩ : BufTy).Contents (Elt F)),
    unary main_call0_v8 main_call0_v9 (Host.log : (⟨S50000x1, .f32⟩ : BufTy).Contents (Elt F) → (⟨S50000x1, .f32⟩ : BufTy).Contents (Elt F)),
    unary main_call0_v9 main_call0_v10 (broadcastInDim S50000x128 ![0, 1] bcast_S50000x1_S50000x128_0_1 : (⟨S50000x1, .f32⟩ : BufTy).Contents (Elt F) → (⟨S50000x128, .f32⟩ : BufTy).Contents (Elt F)),
    binary main_call0_v5 main_call0_v10 main_v31 (subf : (⟨S50000x128, .f32⟩ : BufTy).Contents (Elt F) → (⟨S50000x128, .f32⟩ : BufTy).Contents (Elt F) → (⟨S50000x128, .f32⟩ : BufTy).Contents (Elt F)) ]

attribute [local irreducible] Host.reduce Host.reduceAdd Host.gather Host.scatterAdd in
set_option maxRecDepth 8192 in
/-- @main is that line: the callee's body unfolded at its call, the typed references read as the buffers they name. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## What the line computes -/

/-- The mean of the neighbours' feature rows: source rows gathered, summed into their destination rows, divided by
    the larger of the neighbour count and 1. -/
def meanAgg (x0 : (⟨S50000x128, .f32⟩ : BufTy).Contents (Elt F)) (x1 : (⟨S2x600000, .i32⟩ : BufTy).Contents (Elt F)) : (⟨S50000x128, .f32⟩ : BufTy).Contents (Elt F) :=
  Host.divf (Host.scatterAdd scatter_S50000x128_S600000x1_S600000x128_1_0_0_1 (broadcastInDim S50000x128 ![] bcast_S_S50000x128 (constant S_ .f32 0x00000000#32)) (broadcastInDim S600000x1 ![0] bcast_S600000_S600000x1_0 (shapeCast _ (extractStridedSlice S1x600000 ![1, 0] x1 slices_S2x600000_S1x600000_1_0) shapeCasts_S1x600000_S600000)) (Host.gather gather_S50000x128_S600000x1_S600000x128_1_0_n_n_0_1_1128 x0 (broadcastInDim S600000x1 ![0] bcast_S600000_S600000x1_0 (select (cmpi .slt (shapeCast _ (extractStridedSlice S1x600000 ![0, 0] x1 slices_S2x600000_S1x600000_0_0) shapeCasts_S1x600000_S600000) (broadcastInDim S600000 ![] bcast_S_S600000 (constantI S_ 32 0#32))) (addi (shapeCast _ (extractStridedSlice S1x600000 ![0, 0] x1 slices_S2x600000_S1x600000_0_0) shapeCasts_S1x600000_S600000) (broadcastInDim S600000 ![] bcast_S_S600000 (constantI S_ 32 50000#32))) (shapeCast _ (extractStridedSlice S1x600000 ![0, 0] x1 slices_S2x600000_S1x600000_0_0) shapeCasts_S1x600000_S600000))))) (broadcastInDim S50000x128 ![0, 1] bcast_S50000x1_S50000x128_0_1 (broadcastInDim S50000x1 ![0] bcast_S50000_S50000x1_0 (maximumf (Host.scatterAdd scatter_S50000_S600000x1_S600000_n_0_0_1 (broadcastInDim S50000 ![] bcast_S_S50000 (constant S_ .f32 0x00000000#32)) (broadcastInDim S600000x1 ![0] bcast_S600000_S600000x1_0 (shapeCast _ (extractStridedSlice S1x600000 ![1, 0] x1 slices_S2x600000_S1x600000_1_0) shapeCasts_S1x600000_S600000)) (broadcastInDim S600000 ![] bcast_S_S600000 (constant S_ .f32 0x3F800000#32))) (broadcastInDim S50000 ![] bcast_S_S50000 (constant S_ .f32 0x3F800000#32)))))

/-- The logits: the aggregated rows times the first weight matrix transposed, plus the feature rows times the second
    transposed, plus the bias in every row. -/
def logitsArr (x0 : (⟨S50000x128, .f32⟩ : BufTy).Contents (Elt F)) (x1 : (⟨S2x600000, .i32⟩ : BufTy).Contents (Elt F)) (x2 x3 : (⟨S128x128, .f32⟩ : BufTy).Contents (Elt F)) (x4 : (⟨S128, .f32⟩ : BufTy).Contents (Elt F)) : (⟨S50000x128, .f32⟩ : BufTy).Contents (Elt F) :=
  addf
    (addf
      (Host.dotGeneral dot_S50000x128_S128x128_S50000x128_1_0_0_1_n_n none (meanAgg x0 x1)
        (transpose S128x128 [1, 0] x2 transposes_S128x128_S128x128_1_0))
      (Host.dotGeneral dot_S50000x128_S128x128_S50000x128_1_0_0_1_n_n none x0
        (transpose S128x128 [1, 0] x3 transposes_S128x128_S128x128_1_0)))
    (broadcastInDim S50000x128 ![0, 1] bcast_S1x128_S50000x128_0_1 (broadcastInDim S1x128 ![1] bcast_S128_S1x128_1 x4))

/-- Each row's maximum (reduced from −∞, then once more the maximum with −∞). -/
def rowMaxArr (z : (⟨S50000x128, .f32⟩ : BufTy).Contents (Elt F)) : (⟨S50000, .f32⟩ : BufTy).Contents (Elt F) :=
  maximumf (broadcastInDim S50000 ![] bcast_S_S50000 (constant (F := F) S_ .f32 0xFF800000#32))
    (Host.reduce FloatOps.maximumf z (constant (F := F) S_ .f32 0xFF800000#32) reducesTo_S50000x128_S50000_d1 h_S_)

/-- An array less a per-row value. -/
def shiftArr (z : (⟨S50000x128, .f32⟩ : BufTy).Contents (Elt F)) (mx : (⟨S50000, .f32⟩ : BufTy).Contents (Elt F)) : (⟨S50000x128, .f32⟩ : BufTy).Contents (Elt F) :=
  subf z (broadcastInDim S50000x128 ![0, 1] bcast_S50000x1_S50000x128_0_1 (broadcastInDim S50000x1 ![0] bcast_S50000_S50000x1_0 mx))

/-- Each row's sum of exponentials. -/
def sumExpArr (s : (⟨S50000x128, .f32⟩ : BufTy).Contents (Elt F)) : (⟨S50000, .f32⟩ : BufTy).Contents (Elt F) :=
  Host.reduceAdd (Host.exp s) (constant (F := F) S_ .f32 0x00000000#32) reducesTo_S50000x128_S50000_d1 h_S_

/-- An array less the logarithm of a per-row value. -/
def normArr (s : (⟨S50000x128, .f32⟩ : BufTy).Contents (Elt F)) (t : (⟨S50000, .f32⟩ : BufTy).Contents (Elt F)) : (⟨S50000x128, .f32⟩ : BufTy).Contents (Elt F) :=
  subf s (broadcastInDim S50000x128 ![0, 1] bcast_S50000x1_S50000x128_0_1
    (Host.log (broadcastInDim S50000x1 ![0] bcast_S50000_S50000x1_0 t)))

/-- jax's log_softmax along the rows. -/
def logSoftmaxArr (z : (⟨S50000x128, .f32⟩ : BufTy).Contents (Elt F)) : (⟨S50000x128, .f32⟩ : BufTy).Contents (Elt F) :=
  normArr (shiftArr z (rowMaxArr z)) (sumExpArr (shiftArr z (rowMaxArr z)))

/-- The reference's result as one function of its five arguments. -/
def refValue (x0 : (⟨S50000x128, .f32⟩ : BufTy).Contents (Elt F)) (x1 : (⟨S2x600000, .i32⟩ : BufTy).Contents (Elt F)) (x2 x3 : (⟨S128x128, .f32⟩ : BufTy).Contents (Elt F)) (x4 : (⟨S128, .f32⟩ : BufTy).Contents (Elt F)) : (⟨S50000x128, .f32⟩ : BufTy).Contents (Elt F) :=
  logSoftmaxArr (logitsArr x0 x1 x2 x3 x4)

/-! ## The fold at the result and at the arguments -/

attribute [local irreducible] Host.reduce Host.reduceAdd Host.gather Host.scatterAdd in
set_option maxRecDepth 8192 in
/-- The result buffer after all 52 operations is `refValue` of the arguments' contents. -/
theorem out_eq (V : Valuation τ sig (Elt F)) :
    after ops V (main_v31 : DevRef τ sig)
      = refValue (V (main_arg0 : DevRef τ sig)) (V (main_arg1 : DevRef τ sig)) (V (main_arg2 : DevRef τ sig)) (V (main_arg3 : DevRef τ sig)) (V (main_arg4 : DevRef τ sig)) := by
  after_results_simp <;> rfl

attribute [local irreducible] Host.reduce Host.reduceAdd Host.gather Host.scatterAdd in
set_option maxRecDepth 8192 in
/-- No operation writes argument 0. -/
theorem arg0_eq (V : Valuation τ sig (Elt F)) : after ops V (main_arg0 : DevRef τ sig) = V (main_arg0 : DevRef τ sig) := by
  after_results_simp <;> rfl
attribute [local irreducible] Host.reduce Host.reduceAdd Host.gather Host.scatterAdd in
set_option maxRecDepth 8192 in
/-- No operation writes argument 1. -/
theorem arg1_eq (V : Valuation τ sig (Elt F)) : after ops V (main_arg1 : DevRef τ sig) = V (main_arg1 : DevRef τ sig) := by
  after_results_simp <;> rfl
attribute [local irreducible] Host.reduce Host.reduceAdd Host.gather Host.scatterAdd in
set_option maxRecDepth 8192 in
/-- No operation writes argument 2. -/
theorem arg2_eq (V : Valuation τ sig (Elt F)) : after ops V (main_arg2 : DevRef τ sig) = V (main_arg2 : DevRef τ sig) := by
  after_results_simp <;> rfl
attribute [local irreducible] Host.reduce Host.reduceAdd Host.gather Host.scatterAdd in
set_option maxRecDepth 8192 in
/-- No operation writes argument 3. -/
theorem arg3_eq (V : Valuation τ sig (Elt F)) : after ops V (main_arg3 : DevRef τ sig) = V (main_arg3 : DevRef τ sig) := by
  after_results_simp <;> rfl
attribute [local irreducible] Host.reduce Host.reduceAdd Host.gather Host.scatterAdd in
set_option maxRecDepth 8192 in
/-- No operation writes argument 4. -/
theorem arg4_eq (V : Valuation τ sig (Elt F)) : after ops V (main_arg4 : DevRef τ sig) = V (main_arg4 : DevRef τ sig) := by
  after_results_simp <;> rfl

/-! ## The run -/

/-- On every device, for any float values, from any memory with zero counters: every weakly fair execution of the
    reference's @main terminates with the result buffer at `refValue` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31)
          = refValue (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v31).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_seq scopedRefs_eq scopedSems_eq defs main (fun _ => ops) main_eq (fun _ => ops_sub) m ρ)

end Cert.ReferenceIdeal.HandRun

end
-- ==== Proof.RefValue.lean ====
/-
  What the reference computes, read entry by entry.

  The reference forms all 50000 rows of logits at once — two 50000 × 128 by 128 × 128 products against the transposed
  weight matrices, added, plus the bias in every row — and applies jax's log_softmax along the rows: the row maximum
  (a reduction from −∞, then the maximum with −∞ once more, which changes nothing), the shift, the sum of exponentials
  (a reduction from 0, and 0 + s = s), its logarithm, the subtraction.  At row `r`, column `c`, that is the
  log-softmax of row `r`'s logits at `c`: the function `sage` of the specification.
-/
import proofs.«149953_j18004502905473_1_alg».proof.Proof.RefRun
import proofs.«149953_j18004502905473_1_alg».proof.Proof.Spec
import proofs.«149953_j18004502905473_1_alg».proof.Proof.LibColumn
import Idealize.ShloMosaic.Lib.Pipeline.Value
import Idealize.ShloMosaic.Lib.ValueIdx
import Idealize.ShloMosaic.PureOps.Ideal.Laws

noncomputable section

open scoped BigOperators

namespace Cert.ReferenceIdeal.RefRow

open Cert.ReferenceIdeal Cert.ReferenceIdeal.Gen Cert.ReferenceIdeal.HandRun Idealize.ShloMosaic Idealize.ShloMosaic.ValueIdx Cert.Sage

/-! ## A whole-array matrix product, at an entry -/

/-- The left operand is read at the output's row … -/
theorem lhs_row (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
/-- … and at the contraction index; -/
theorem lhs_contr (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
/-- the right operand at the contraction index … -/
theorem rhs_contr (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
/-- … and at the output's column. -/
theorem rhs_col (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- Entry (r, c) of a [50000,128] × [128,128] product is the sum over the 128 contraction indices of the products of
    row `r` of the left operand with column `c` of the right. -/
theorem dot_ix2 (l : FVec Ideal S50000x128 .f32) (w : FVec Ideal S128x128 .f32) (r : Fin 50000) (c : Fin 128) :
    Host.dotGeneral dot_S50000x128_S128x128_S50000x128_1_0_0_1_n_n none l w (ix2 r c) = ∑ k : Fin 128, l (ix2 r k) * w (ix2 k c) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r c) ((contrEquiv1 dot_S50000x128_S128x128_S50000x128_1_0_0_1_n_n 128 rfl rfl).symm k) = ix2 r k := funext fun a => Fin.ext (by
    match a with
    | ⟨0, _⟩ => exact lhs_row _ _
    | ⟨1, _⟩ => exact (lhs_contr _ _).trans hk)
  have er : dot_S50000x128_S128x128_S50000x128_1_0_0_1_n_n.rhsIdx (ix2 r c) ((contrEquiv1 dot_S50000x128_S128x128_S50000x128_1_0_0_1_n_n 128 rfl rfl).symm k) = ix2 k c := funext fun a => Fin.ext (by
    match a with
    | ⟨0, _⟩ => exact (rhs_contr _ _).trans hk
    | ⟨1, _⟩ => exact rhs_col _ _)
  rw [el, er]

/-! ## The layout operations the reference uses, at an entry -/

/-- The bias as a row, broadcast down all rows, reads the bias at the column. -/
theorem bias_ix2 (b : FVec Ideal S128 .f32) (r : Fin 50000) (c : Fin 128) :
    broadcastInDim S50000x128 ![0, 1] bcast_S1x128_S50000x128_0_1 (broadcastInDim S1x128 ![1] bcast_S128_S1x128_1 b) (ix2 r c)
      = b (ix1 c) := by
  refine (broadcastInDim_apply _ bcast_S1x128_S50000x128_0_1 _ (ix2 r c) (ix2 (0 : Fin 1) c) (fun a => ?_)).trans
    (broadcastInDim_apply _ bcast_S128_S1x128_1 b (ix2 (0 : Fin 1) c) (ix1 c) (fun a => ?_))
  · match a with
    | ⟨0, _⟩ => show 0 = if (1 : Nat) = 1 then 0 else r.val; rw [if_pos rfl]
    | ⟨1, _⟩ => show c.val = if (128 : Nat) = 1 then 0 else c.val; rw [if_neg (by decide)]
  · match a with
    | ⟨0, _⟩ => show c.val = if (128 : Nat) = 1 then 0 else c.val; rw [if_neg (by decide)]

/-- A per-row value as a column, broadcast along the rows, reads the row's value. -/
theorem column_ix2 (t : FVec Ideal S50000 .f32) (r : Fin 50000) (c : Fin 128) :
    broadcastInDim S50000x128 ![0, 1] bcast_S50000x1_S50000x128_0_1 (broadcastInDim S50000x1 ![0] bcast_S50000_S50000x1_0 t) (ix2 r c)
      = t (ix1 r) := by
  refine (broadcastInDim_apply _ bcast_S50000x1_S50000x128_0_1 _ (ix2 r c) (ix2 r (0 : Fin 1)) (fun a => ?_)).trans
    (broadcastInDim_apply _ bcast_S50000_S50000x1_0 t (ix2 r (0 : Fin 1)) (ix1 r) (fun a => ?_))
  · match a with
    | ⟨0, _⟩ => show r.val = if (50000 : Nat) = 1 then 0 else r.val; rw [if_neg (by decide)]
    | ⟨1, _⟩ => show 0 = if (1 : Nat) = 1 then 0 else c.val; rw [if_pos rfl]
  · match a with
    | ⟨0, _⟩ => show r.val = if (50000 : Nat) = 1 then 0 else r.val; rw [if_neg (by decide)]

/-- The same with a pointwise operation between the two broadcasts (the logarithm of the row sums). -/
theorem column_of_ix2 (u : FVec Ideal S50000x1 .f32) (r : Fin 50000) (c : Fin 128) :
    broadcastInDim S50000x128 ![0, 1] bcast_S50000x1_S50000x128_0_1 u (ix2 r c) = u (ix2 r (0 : Fin 1)) := by
  refine broadcastInDim_apply _ bcast_S50000x1_S50000x128_0_1 u (ix2 r c) (ix2 r (0 : Fin 1)) (fun a => ?_)
  match a with
  | ⟨0, _⟩ => show r.val = if (50000 : Nat) = 1 then 0 else r.val; rw [if_neg (by decide)]
  | ⟨1, _⟩ => show 0 = if (1 : Nat) = 1 then 0 else c.val; rw [if_pos rfl]

theorem toColumn_ix2 (t : FVec Ideal S50000 .f32) (r : Fin 50000) :
    broadcastInDim S50000x1 ![0] bcast_S50000_S50000x1_0 t (ix2 r (0 : Fin 1)) = t (ix1 r) := by
  refine broadcastInDim_apply _ bcast_S50000_S50000x1_0 t (ix2 r (0 : Fin 1)) (ix1 r) (fun a => ?_)
  match a with
  | ⟨0, _⟩ => show r.val = if (50000 : Nat) = 1 then 0 else r.val; rw [if_neg (by decide)]

/-! ## Each stage at an entry -/

/-- Row `r` of the logits array is the logits of row `r` of the aggregated and of the feature arrays. -/
theorem logitsArr_ix2 (x0 : FVec Ideal S50000x128 .f32) (x1 : IVec S2x600000 32) (x2 x3 : FVec Ideal S128x128 .f32)
    (x4 : FVec Ideal S128 .f32) (r : Fin 50000) (c : Fin 128) :
    logitsArr (F := Ideal) x0 x1 x2 x3 x4 (ix2 r c)
      = logit (fun k => meanAgg (F := Ideal) x0 x1 (ix2 r k)) (fun k => x0 (ix2 r k))
          (fun k c => transpose S128x128 [1, 0] x2 transposes_S128x128_S128x128_1_0 (ix2 k c))
          (fun k c => transpose S128x128 [1, 0] x3 transposes_S128x128_S128x128_1_0 (ix2 k c)) (fun c => x4 (ix1 c)) c := by
  unfold logitsArr
  rw [addf_apply, addf_apply, dot_ix2, dot_ix2, bias_ix2]
  rfl

/-- The row maximum of row `r`: the reduction from −∞, and the further maximum with −∞ changes nothing. -/
theorem rowMaxArr_ix1 (z : FVec Ideal S50000x128 .f32) (r : Fin 50000) :
    rowMaxArr (F := Ideal) z (ix1 r) = rowMax (fun c => z (ix2 r c)) := by
  unfold rowMaxArr
  rw [maximumf_apply]
  have h : S50000x128.Reduces [1] S50000 := by decide
  have e0 : broadcastInDim S50000 ![] bcast_S_S50000 (constant (F := Ideal) S_ .f32 0xFF800000#32) (ix1 r)
      = Ideal.ofBits .f32 0xFF800000#32 := rfl
  rw [e0, max_negInf_left, Host.reduce_eq_fold_single FloatOps.maximumf z _ reducesTo_S50000x128_S50000_d1 h h_S_]
  unfold rowMax
  have hf : (z ∘ h.lift (ix1 r)) = fun k : Fin 128 => z (ix2 r k) := funext fun k => congrArg z (lift_axis1_ix2 h r k)
  exact congrArg (fun f => Finset.fold max (Ideal.ofBits .f32 0xFF800000#32) f (Finset.univ : Finset (Fin 128))) hf

/-- The shifted array at (r, c). -/
theorem shiftArr_ix2 (z : FVec Ideal S50000x128 .f32) (mx : FVec Ideal S50000 .f32) (r : Fin 50000) (c : Fin 128) :
    shiftArr (F := Ideal) z mx (ix2 r c) = z (ix2 r c) - mx (ix1 r) := by
  unfold shiftArr
  rw [subf_apply, column_ix2]

/-- The sum of exponentials of row `r`: the reduction starts from 0. -/
theorem sumExpArr_ix1 (s : FVec Ideal S50000x128 .f32) (r : Fin 50000) :
    sumExpArr (F := Ideal) s (ix1 r) = ∑ k : Fin 128, Ideal.exp (s (ix2 r k)) := by
  unfold sumExpArr
  have h : S50000x128.Reduces [1] S50000 := by decide
  simp only [Host.reduceAdd, Ideal.hostReduceAdd_def]
  rw [Ideal.hostReduceAdd_single reducesTo_S50000x128_S50000_d1 h]
  have e0 : constant (F := Ideal) S_ .f32 0x00000000#32 (Shape.Idx.first h_S_) = 0 := Ideal.ofBits_zero_f32
  rw [e0, zero_add]
  refine Finset.sum_congr rfl fun k _ => ?_
  exact congrArg (Host.exp s) (lift_axis1_ix2 h r k)

/-- The normalized array at (r, c). -/
theorem normArr_ix2 (s : FVec Ideal S50000x128 .f32) (t : FVec Ideal S50000 .f32) (r : Fin 50000) (c : Fin 128) :
    normArr (F := Ideal) s t (ix2 r c) = s (ix2 r c) - Ideal.log (t (ix1 r)) := by
  unfold normArr
  rw [subf_apply, column_of_ix2]
  show s (ix2 r c) - Ideal.log (broadcastInDim S50000x1 ![0] bcast_S50000_S50000x1_0 t (ix2 r (0 : Fin 1))) = _
  rw [toColumn_ix2]

/-- jax's log_softmax at (r, c) is the log-softmax of row `r` at `c`. -/
theorem logSoftmaxArr_ix2 (z : FVec Ideal S50000x128 .f32) (r : Fin 50000) (c : Fin 128) :
    logSoftmaxArr (F := Ideal) z (ix2 r c) = logSoftmaxRow (fun c => z (ix2 r c)) c := by
  unfold logSoftmaxArr logSoftmaxRow
  rw [normArr_ix2, shiftArr_ix2, rowMaxArr_ix1, sumExpArr_ix1]
  refine congrArg (fun t => z (ix2 r c) - rowMax (fun c => z (ix2 r c)) - Ideal.log t) ?_
  refine Finset.sum_congr rfl fun k _ => ?_
  rw [shiftArr_ix2, rowMaxArr_ix1]

/-! ## The reference's result is `sage` -/

/-- The reference's result is `sage` of the mean-aggregated rows, the feature rows, the two transposed weight
    matrices and the bias. -/
theorem refValue_eq (x0 : FVec Ideal S50000x128 .f32) (x1 : IVec S2x600000 32) (x2 x3 : FVec Ideal S128x128 .f32)
    (x4 : FVec Ideal S128 .f32) :
    refValue (F := Ideal) x0 x1 x2 x3 x4
      = sage (meanAgg (F := Ideal) x0 x1) x0 (transpose S128x128 [1, 0] x2 transposes_S128x128_S128x128_1_0)
          (transpose S128x128 [1, 0] x3 transposes_S128x128_S128x128_1_0) x4 := by
  funext i
  obtain ⟨r, c, rfl⟩ : ∃ (r : Fin 50000) (c : Fin 128), i = ix2 r c := ⟨i 0, i 1, eq_ix2 i⟩
  unfold refValue
  rw [logSoftmaxArr_ix2, sage_ix2]
  have hrow : (fun c : Fin 128 => logitsArr (F := Ideal) x0 x1 x2 x3 x4 (ix2 r c))
      = logit (fun k => meanAgg (F := Ideal) x0 x1 (ix2 r k)) (fun k => x0 (ix2 r k))
          (fun k c => transpose S128x128 [1, 0] x2 transposes_S128x128_S128x128_1_0 (ix2 k c))
          (fun k c => transpose S128x128 [1, 0] x3 transposes_S128x128_S128x128_1_0 (ix2 k c)) (fun c => x4 (ix1 c)) :=
    funext fun c => logitsArr_ix2 x0 x1 x2 x3 x4 r c
  rw [hrow]

end Cert.ReferenceIdeal.RefRow

end
-- ==== Proof.lean ====
/-
  A GraphSAGE layer with mean aggregation followed by a row-wise log-softmax, on 50000 nodes with 128 features.

  Both programs first form, for every node, the mean of its in-neighbours' feature rows (a gather of source rows, a
  scatter-add into destination rows, a division by the larger of the in-degree and 1): that part is the same list of
  host operations in both, on the same arguments, so it is carried through this certificate as ONE unopened function
  `meanAgg` — whatever the edge indices are.  Then each computes, per node,

      z c = (∑ k, agg k · W_l c k) + (∑ k, x k · W_r c k) + b c          and          z c − M − log ∑ k, exp (z k − M),

  M the largest of the node's 128 logits.  The kernel does it in ten blocks of 5000 nodes, with the operands narrowed
  to bf16 first (the identity on the extended reals), matrix products into zero accumulators, and lane reductions; the
  reference does it on whole arrays with jax's log_softmax.  A result row depends only on the same row of the inputs, so
  the ten blocks are the ten row bands of one function of the whole arrays, `Cert.Sage.sage`:
    · the kernel's output array is `sage` of the arrays its region finds (Proof/KernelRow.lean: one block entry by
      entry; Proof/KernelWhole.lean: the blocks tile the array), and those arrays are the narrowed `meanAgg`, features
      and transposed weights, and the bias (Proof/KernelEntry.lean);
    · the reference's result is `sage` of `meanAgg`, the features, the transposed weights and the bias
      (Proof/RefRun.lean: its run read back; Proof/RefValue.lean: entry by entry).
  No algebraic law joins the two sides beyond "−∞ is the least element" and "0 + s = s", and none needs the inputs finite.
  The three frames are the two generated ones and the reference's run with its result dropped; the idealization
  rewrote nothing, so `preserves` is trivial.
-/
import proofs.«149953_j18004502905473_1_alg».proof.Defs
import proofs.«149953_j18004502905473_1_alg».proof.Proof.Gen.Kernel
import proofs.«149953_j18004502905473_1_alg».proof.Proof.Gen.Kernel.Frame
import proofs.«149953_j18004502905473_1_alg».proof.Proof.Gen.KernelIdeal
import proofs.«149953_j18004502905473_1_alg».proof.Proof.Gen.KernelIdeal.Frame
import proofs.«149953_j18004502905473_1_alg».proof.Proof.Gen.KernelIdeal.Value
import proofs.«149953_j18004502905473_1_alg».proof.Proof.Gen.ReferenceIdeal
import proofs.«149953_j18004502905473_1_alg».proof.Proof.Gen.Pre_finite_inputs
import proofs.«149953_j18004502905473_1_alg».proof.Proof.KernelWhole
import proofs.«149953_j18004502905473_1_alg».proof.Proof.KernelEntry
import proofs.«149953_j18004502905473_1_alg».proof.Proof.RefRun
import proofs.«149953_j18004502905473_1_alg».proof.Proof.RefValue
import Idealize.ShloMosaic.Adequacy
import Idealize.ShloMosaic.Init

noncomputable section

namespace Cert.Proof

open Idealize.ShloMosaic Idealize.ShloMosaic.TcCoe Idealize.SL.Sem

/-! ## The shared first part is one function -/

attribute [local irreducible] Host.gather Host.scatterAdd in
/-- The two programs' mean-aggregation is the same list of operations: the same function of the features and the
    edge indices, for every float family. -/
theorem meanAgg_same {F : FTy → Type} [FloatOps F] (x0 : FVec F Cert.KernelIdeal.S50000x128 .f32) (x1 : IVec Cert.KernelIdeal.S2x600000 32) :
    Cert.ReferenceIdeal.HandRun.meanAgg (F := F) x0 x1 = Cert.KernelIdeal.Entry.meanAgg (F := F) x0 x1 := rfl

/-- On the extended reals a narrowing to bf16 is the identity. -/
theorem narrow_id {s : Shape} (a : FVec Ideal s .f32) (h : FTy.bits .bf16 < FTy.bits .f32) :
    (truncf .bf16 a h : FVec Ideal s .bf16) = a := rfl

/-- The reference's result on arguments `x0 … x4` is the kernel's output array when the kernel is launched on the same
    arguments. -/
theorem same_value (m : (ℓ : Loc Cert.KernelIdeal.nD Cert.KernelIdeal.τ Cert.KernelIdeal.sig) → Buf (Elt Ideal) ℓ)
    (c : Dev Cert.KernelIdeal.nD) :
    Cert.ReferenceIdeal.HandRun.refValue (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Whole.result m c := by
  rw [Cert.ReferenceIdeal.RefRow.refValue_eq, meanAgg_same]
  unfold Cert.KernelIdeal.Whole.result Cert.KernelIdeal.Whole.aggArr Cert.KernelIdeal.Whole.featArr Cert.KernelIdeal.Whole.wlArr
    Cert.KernelIdeal.Whole.wrArr Cert.KernelIdeal.Whole.biasArr
  rw [Cert.KernelIdeal.Entry.found_agg, Cert.KernelIdeal.Entry.found_feat, Cert.KernelIdeal.Entry.found_wl,
    Cert.KernelIdeal.Entry.found_wr, Cert.KernelIdeal.Gen.V_main_arg4, narrow_id, narrow_id, narrow_id, narrow_id]

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The ideal pass rewrote no operation. -/
theorem preserves : Cert.preserves_Kernel_KernelIdeal := trivial

/-- Both runs end with the result at `sage` of the same arrays. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2.1, (hagree c).2.2.2.1, (hagree c).2.2.2.2]
  exact same_value m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
